-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  natLt_1_32 : 1 < 32
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The mathematics of a binary-weight product, with no program in sight.

  Both programs multiply `x` (4096 × 4096) by the HARD weight `[w > 0]` (one where the entry is above zero, else
  zero).  The kernel does so directly, 512 contraction indices at a time, adding the eight partial products of a row
  and a column into an accumulator that starts at zero.  The reference goes through a straight-through estimator: with
  the soft weight `s = 1 / (1 + e^(-w))` it forms `s + ([w > 0] - s)`.  For a real `w` the soft weight is a real
  number, so the difference cancels and the estimator IS the hard weight; on the extended reals this needs `s` to be
  finite (`⊤ + (h - ⊤)` is not `h`), which is where the finiteness of `w` is used.  The two sums then differ only in
  grouping, and addition of extended reals is associative and commutative without any side condition.
-/
import Idealize.ShloMosaic.PureOps.Ideal
import Idealize.ShloMosaic.PureOps.Ideal.Laws
import Idealize.ShloMosaic.Lib.ValueIdx

noncomputable section

namespace Cert.Ste

open Idealize.ShloMosaic Idealize.ShloMosaic.ValueIdx

/-- The square arrays' shape. -/
abbrev Sq : Shape := ⟨2, ![4096, 4096]⟩

/-- The hard weight of an entry: one if it is above zero, else zero. -/
def hard (w : EReal) : EReal := (((Ideal.cmp .ogt w 0).toNat : ℝ) : EReal)

/-- A one-bit word widened to 32 bits and read as a signed integer is the bit itself. -/
theorem widen_toInt (b : BitVec 1) : (b.setWidth 32).toInt = (b.toNat : ℤ) := by
  revert b; decide

/-- The kernel's spelling of the hard weight: the comparison's bit, widened, converted as a signed integer. -/
theorem hard_of_widened (w z : EReal) (hz : z = 0) :
    (((((Ideal.cmp .ogt w z).setWidth 32).toInt : ℤ) : ℝ) : EReal) = hard w := by
  subst hz
  unfold hard
  rw [widen_toInt]
  norm_cast

/-- The word of `1.0` denotes one. -/
theorem one_f32 : Ideal.ofBits .f32 0x3F800000#32 = 1 := by
  simp [Ideal.ofBits, Ideal.ieee, -EReal.coe_mul]; norm_num

/-- The soft weight of a real entry is a real number. -/
theorem soft_real (r : ℝ) : Ideal.div 1 (1 + Ideal.exp (-(r : EReal))) = (((1 + Real.exp (-r))⁻¹ : ℝ) : EReal) :=
  Ideal.logistic_coe (r := r)

/-- THE STRAIGHT-THROUGH ESTIMATOR IS THE HARD WEIGHT at a real entry: the soft weight is finite, so it cancels. -/
theorem ste_eq_hard (r : ℝ) :
    Ideal.div 1 (1 + Ideal.exp (-(r : EReal))) + (hard (r : EReal) - Ideal.div 1 (1 + Ideal.exp (-(r : EReal)))) = hard (r : EReal) := by
  rw [soft_real]
  unfold hard
  rw [← EReal.coe_sub, ← EReal.coe_add]
  congr 1
  ring

/-- One product of the contraction, with every coordinate a natural number (zero outside the arrays). -/
def term (X W : Sq.Idx → EReal) (r c n : ℕ) : EReal :=
  if h : r < 4096 ∧ c < 4096 ∧ n < 4096 then X (ix2 ⟨r, h.1⟩ ⟨n, h.2.2⟩) * hard (W (ix2 ⟨n, h.2.2⟩ ⟨c, h.2.1⟩)) else 0

/-- The partial product of row `r` and column `c` over the `k`-th block of 512 contraction indices. -/
def blockSum (X W : Sq.Idx → EReal) (r c k : ℕ) : EReal := ∑ l : Fin 512, term X W r c (512 * k + l.val)

/-- The first `n` blocks' partial products, added. -/
def partSum (X W : Sq.Idx → EReal) (r c n : ℕ) : EReal := ∑ k ∈ Finset.range n, blockSum X W r c k

theorem partSum_zero (X W : Sq.Idx → EReal) (r c : ℕ) : partSum X W r c 0 = 0 := Finset.sum_range_zero _

theorem partSum_succ (X W : Sq.Idx → EReal) (r c n : ℕ) :
    partSum X W r c (n + 1) = partSum X W r c n + blockSum X W r c n := Finset.sum_range_succ _ _

/-- THE RESULT: entry (r, c) is the sum over the whole contraction of `x[r, k] · [w[k, c] > 0]`. -/
def G (X W : Sq.Idx → EReal) : Sq.Idx → EReal :=
  fun i => ∑ k : Fin 4096, X (ix2 (i 0) k) * hard (W (ix2 k (i 1)))

/-- A sum over 4096 indices is the sum of its eight blocks of 512. -/
theorem sum_eight_blocks (f : ℕ → EReal) :
    ∑ kk : Fin 4096, f kk.val = ∑ k ∈ Finset.range 8, ∑ l : Fin 512, f (512 * k + l.val) := by
  rw [← Fin.sum_univ_eq_sum_range (fun k => ∑ l : Fin 512, f (512 * k + l.val)) 8]
  rw [← Fintype.sum_prod_type']
  rw [← Equiv.sum_comp (finProdFinEquiv (m := 8) (n := 512)) (fun kk : Fin (8 * 512) => f kk.val)]
  refine Finset.sum_congr rfl fun p _ => ?_
  show f (p.2.val + 512 * p.1.val) = _
  rw [Nat.add_comm]

/-- So the result at (r, c) is the eight partial products, added. -/
theorem G_eq_partSum (X W : Sq.Idx → EReal) (i : Sq.Idx) : G X W i = partSum X W (i 0).val (i 1).val 8 := by
  unfold G partSum blockSum
  rw [← sum_eight_blocks (fun n => term X W (i 0).val (i 1).val n)]
  refine Finset.sum_congr rfl fun k _ => ?_
  unfold term
  rw [dif_pos ⟨(i 0).isLt, (i 1).isLt, k.isLt⟩]
  rfl

end Cert.Ste

end
-- ==== Proof.Payload.lean ====
/-
  One grid point's arithmetic at an entry, over the extended reals.

  The body's value at entry (p, q) of the accumulator block is the old entry plus the sum, over the point's 512
  contraction indices `l`, of `x[p, l]` times the hard weight of `w[l, q]`.  The changes of float format are the
  identity here; the matrix product into a zero accumulator is the plain sum of products; and the comparison's bit,
  widened to a 32-bit word and converted as a signed integer, is the hard weight.  The block of zeros the first point
  of a run stores is zero at every entry.
-/
import proofs.«178743_j10136122818965_1_alg».proof.Proof.Gen.KernelIdeal.Skeleton
import proofs.«178743_j10136122818965_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Acc

open Cert.KernelIdeal Cert.KernelIdeal.Gen

/-! The operand indices of the block product at an output index and a contraction index, axis by axis. -/

theorem lhs_blk_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_blk_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_blk_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_blk_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into a zero accumulator, at entry (p, q): the sum over the 512 contraction indices. -/
theorem blockProduct_apply {φ₁ φ₂ : FTy} (x : FVec Ideal S1024x512 φ₁) (w : FVec Ideal S512x1024 φ₂) (p q : Fin 1024) :
    matmul dot_S1024x512_S512x1024_S1024x1024_1_0_0_1_n_n none x w (constant S1024x1024 .f32 0x00000000#32) (ix2 p q)
      = ∑ l : Fin 512, x (ix2 p l) * w (ix2 l q) := by
  show FloatOps.matmul dot_S1024x512_S512x1024_S1024x1024_1_0_0_1_n_n none x w (constant S1024x1024 .f32 0x00000000#32) (ix2 p q) = _
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_blk_0 _ _
    | ⟨1, _⟩ => exact (lhs_blk_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_blk_0 _ _).trans hk
    | ⟨1, _⟩ => exact rhs_blk_1 _ _)
  rw [el, er]

/-- The block of zeros is zero at every entry. -/
theorem zeros_apply (j : S1024x1024.Idx) : k0_pay1 (F := Ideal) j = 0 := by
  unfold k0_pay1
  rw [shapeCast_self]
  show Ideal.ofBits .f32 0x00000000#32 = 0
  exact Ideal.ofBits_zero_f32

/-- THE POINT'S ARITHMETIC at entry (p, q): the old entry plus the sum of `x[p, l] · [w[l, q] > 0]` over the point's
    512 contraction indices. -/
theorem step_apply (x : Vec Ideal S1024x512 .f32) (w : Vec Ideal S512x1024 .f32) (acc : Vec Ideal S1024x1024 .f32)
    (p q : Fin 1024) :
    k0_pay2 x w acc (ix2 p q) = acc (ix2 p q) + ∑ l : Fin 512, x (ix2 p l) * Cert.Ste.hard (w (ix2 l q)) := by
  unfold k0_pay2
  rw [shapeCast_self]
  show acc (ix2 p q) + matmul (F := Ideal) dot_S1024x512_S512x1024_S1024x1024_1_0_0_1_n_n none _ _ (constant S1024x1024 .f32 0x00000000#32) (ix2 p q) = _
  rw [blockProduct_apply]
  refine congrArg (acc (ix2 p q) + ·) (Finset.sum_congr rfl fun l _ => ?_)
  refine congrArg (x (ix2 p l) * ·) ?_
  exact Cert.Ste.hard_of_widened (w (ix2 l q)) _ Ideal.ofBits_zero_f32

end Cert.KernelIdeal.Acc

end
-- ==== Proof.Blocks.lean ====
/-
  A grid point's blocks, read off the whole arrays.

  The grid has 4 × 4 × 8 points, numbered with the contraction axis fastest: point `t` works on row block `t / 32`,
  column block `(t / 8) % 4` and contraction block `t % 8`.  Its block of `x` is rows `1024·(t/32) + p`, columns
  `512·(t%8) + l`; its block of `w` is rows `512·(t%8) + l`, columns `1024·((t/8)%4) + q`.  So what the point adds
  to entry (p, q) of the accumulator is the partial product of row `1024·(t/32) + p` and column `1024·((t/8)%4) + q`
  over contraction block `t % 8`.
-/
import proofs.«178743_j10136122818965_1_alg».proof.Proof.Gen.KernelIdeal.Frame
import proofs.«178743_j10136122818965_1_alg».proof.Proof.Payload
import Idealize.ShloMosaic.Lib.Pipeline.Value

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The three windows' block indices at point `t`, decided over the grid. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N, _)

/-- The two argument arrays, as the launch finds them. -/
abbrev X (c : Dev nD) : Cert.Ste.Sq.Idx → EReal := m ((c : Thread nD τ).loc main_arg0)
abbrev W (c : Dev nD) : Cert.Ste.Sq.Idx → EReal := m ((c : Thread nD τ).loc main_arg1)

/-- Point `t`'s blocks of `x` and of `w`. -/
abbrev xblk (c : Dev nD) (t : Fin cfg0.N) : Vec Ideal S1024x512 .f32 := iblk m c 0 t
abbrev wblk (c : Dev nD) (t : Fin cfg0.N) : Vec Ideal S512x1024 .f32 := iblk m c 1 t

/-- Entry (p, l) of point `t`'s block of `x` is `x[1024·(t/32) + p, 512·(t%8) + l]`. -/
theorem xblk_apply (c : Dev nD) (t : Fin cfg0.N) (p : Fin 1024) (l : Fin 512)
    (hr : 1024 * (t.val / 32) + p.val < 4096) (hn : 512 * (t.val % 8) + l.val < 4096) :
    xblk m c t (ix2 p l) = X m c (ix2 ⟨1024 * (t.val / 32) + p.val, hr⟩ ⟨512 * (t.val % 8) + l.val, hn⟩) := by
  obtain ⟨e0, e1, -⟩ := idx_facts t
  show (((cfg0.win 0).blk t).view.read (Elt Ideal) (V m c (Pipeline.arrRef spec0 0))) (ix2 p l) = _
  rw [View.read_apply]
  show m ((c : Thread nD τ).loc main_arg0) _ = m ((c : Thread nD τ).loc main_arg0) _
  congr 1
  funext a
  apply Fin.ext
  match a with
  | ⟨0, _⟩ => show win0_0.index t (0 : Fin 2) * 1024 + 1 * p.val = 1024 * (t.val / 32) + p.val; omega
  | ⟨1, _⟩ => show win0_0.index t (1 : Fin 2) * 512 + 1 * l.val = 512 * (t.val % 8) + l.val; omega

/-- Entry (l, q) of point `t`'s block of `w` is `w[512·(t%8) + l, 1024·((t/8)%4) + q]`. -/
theorem wblk_apply (c : Dev nD) (t : Fin cfg0.N) (l : Fin 512) (q : Fin 1024)
    (hn : 512 * (t.val % 8) + l.val < 4096) (hc : 1024 * (t.val / 8 % 4) + q.val < 4096) :
    wblk m c t (ix2 l q) = W m c (ix2 ⟨512 * (t.val % 8) + l.val, hn⟩ ⟨1024 * (t.val / 8 % 4) + q.val, hc⟩) := by
  obtain ⟨-, -, e2, e3, -⟩ := idx_facts t
  show (((cfg0.win 1).blk t).view.read (Elt Ideal) (V m c (Pipeline.arrRef spec0 1))) (ix2 l q) = _
  rw [View.read_apply]
  show m ((c : Thread nD τ).loc main_arg1) _ = m ((c : Thread nD τ).loc main_arg1) _
  congr 1
  funext a
  apply Fin.ext
  match a with
  | ⟨0, _⟩ => show win0_1.index t (0 : Fin 2) * 512 + 1 * l.val = 512 * (t.val % 8) + l.val; omega
  | ⟨1, _⟩ => show win0_1.index t (1 : Fin 2) * 1024 + 1 * q.val = 1024 * (t.val / 8 % 4) + q.val; omega

/-- ONE POINT'S STEP at entry (p, q): the old entry plus the partial product of the point's row and column over the
    point's contraction block. -/
theorem step_sum (c : Dev nD) (t : Fin cfg0.N) (acc : Vec Ideal S1024x1024 .f32) (p q : Fin 1024) :
    k0_pay2 (xblk m c t) (wblk m c t) acc (ix2 p q)
      = acc (ix2 p q) + Cert.Ste.blockSum (X m c) (W m c) (1024 * (t.val / 32) + p.val) (1024 * (t.val / 8 % 4) + q.val) (t.val % 8) := by
  have hN : t.val < 128 := lt_of_lt_of_eq t.isLt (show cfg0.N = 128 from N_0)
  have hp : p.val < 1024 := p.isLt
  have hq : q.val < 1024 := q.isLt
  rw [step_apply]
  refine congrArg (acc (ix2 p q) + ·) ?_
  unfold Cert.Ste.blockSum
  refine Finset.sum_congr rfl fun l _ => ?_
  have hl : l.val < 512 := l.isLt
  have hr' : 1024 * (t.val / 32) + p.val < 4096 := by omega
  have hc' : 1024 * (t.val / 8 % 4) + q.val < 4096 := by omega
  have hn' : 512 * (t.val % 8) + l.val < 4096 := by omega
  rw [xblk_apply m c t p l hr' hn', wblk_apply m c t l q hn' hc']
  unfold Cert.Ste.term
  rw [dif_pos ⟨hr', hc', hn'⟩]

end Cert.KernelIdeal.Acc

end
-- ==== Proof.Pieces.lean ====
/-
  What one grid point leaves behind, as values.

  At every point the body adds, into the accumulator it keeps between points, the product of the point's block of
  `x` with the hard weights of its block of `w`.  At the first of a run's eight points it stores zeros into the
  accumulator beforehand, so the sum starts from zero there; at the last it also copies the accumulator into the
  output block.  Each statement below reads the stores one such point made back as one value: the accumulator's new
  contents are the body's sum over the old contents (over the zero block at a run's first point), and at a run's last
  point the output block holds the same value as the accumulator.
-/
import proofs.«178743_j10136122818965_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A middle point of a run: the accumulator ends at its old contents plus this point's product. -/
theorem scratch_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread,
    View.ld_unit_zero (S := S1024x512) hz, View.ld_unit_zero (S := S512x1024) hz, View.ld_unit_zero (S := S1024x1024) hz]

/-- A run's first point: zeros are stored first and read back, so the accumulator ends at zero plus this point's
    product. -/
theorem scratch_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread,
    View.ld_unit_zero (S := S1024x512) hz, View.ld_unit_zero (S := S512x1024) hz, View.ld_unit_zero (S := S1024x1024) hz]

/-- A run's last point: the accumulator ends at its old contents plus this point's product, -/
theorem scratch_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S1024x512) hz, View.ld_unit_zero (S := S512x1024) hz, View.ld_unit_zero (S := S1024x1024) hz]

/-- and the output block is a copy of it. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread,
    View.ld_unit_zero (S := S1024x512) hz, View.ld_unit_zero (S := S512x1024) hz, View.ld_unit_zero (S := S1024x1024) hz]

end Cert.KernelIdeal.Acc

end
-- ==== Proof.Fold.lean ====
/-
  The accumulator across a run of eight points, and the array the kernel leaves.

  Invariant: after point `n`, entry (p, q) of the accumulator holds the first `n % 8 + 1` partial products of row
  `1024·(n/32) + p` and column `1024·((n/8)%4) + q` — at a run's first point because the accumulator was zeroed
  there, at every later point because the row and the column are those of the point before (the eight points of a run
  share them) and the point adds its own contraction block's partial product.  At a run's last point (`n % 8 = 7`)
  that is all eight, the whole contraction; the point copies it into the output block, which is written back there and
  only there.  The sixteen runs' output blocks tile the 4096 × 4096 result, so the result array ends holding, at every
  entry, the full sum of `x[r, k] · [w[k, c] > 0]`.
-/
import proofs.«178743_j10136122818965_1_alg».proof.Proof.Gen.KernelIdeal.Value
import proofs.«178743_j10136122818965_1_alg».proof.Proof.Blocks
import proofs.«178743_j10136122818965_1_alg».proof.Proof.Pieces

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Ste

variable (m : (ℓ : Loc nD τ sig) → Buf (Elt Ideal) ℓ) (ρ : Dev nD → PrngReg)

/-- THE INVARIANT: the accumulator after point `n`, entry by entry, is the partial products so far of the point's row
    and column. -/
theorem acc_eq (c : Dev nD) : ∀ (n : ℕ) (h : n < cfg0.N) (p q : Fin 1024),
    (outsAt0 m c n h).2 (ix2 p q)
      = partSum (X m c) (W m c) (1024 * (n / 32) + p.val) (1024 * (n / 8 % 4) + q.val) (n % 8 + 1) := by
  intro n
  induction n using Nat.strong_induction_on with
  | _ n ih =>
    intro h p q
    have hN : n < 128 := lt_of_lt_of_eq h (show cfg0.N = 128 from N_0)
    by_cases h0 : n % 8 = 0
    · have h1 : ¬n % 8 = 7 := by omega
      rw [outsAt0_A m c ⟨n, h⟩ h0 h1]
      dsimp only
      refine (congrFun (scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩)) (ix2 p q)).trans ?_
      refine (step_sum m c ⟨n, h⟩ (k0_pay1 (F := Ideal)) p q).trans ?_
      rw [zeros_apply]
      show 0 + blockSum (X m c) (W m c) (1024 * (n / 32) + p.val) (1024 * (n / 8 % 4) + q.val) (n % 8) = _
      rw [h0, partSum_succ, partSum_zero]
    · have e1 : (n - 1) / 32 = n / 32 := by omega
      have e2 : (n - 1) / 8 % 4 = n / 8 % 4 := by omega
      have e3 : (n - 1) % 8 + 1 = n % 8 := by omega
      by_cases h1 : n % 8 = 7
      · rw [outsAt0_C m c ⟨n, h⟩ h0 h1]
        dsimp only
        refine (congrFun (scratch_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (outsAt0 m c (n - 1) (Nat.lt_of_le_of_lt (Nat.sub_le _ _) h)).2) (ix2 p q)).trans ?_
        refine (step_sum m c ⟨n, h⟩ _ p q).trans ?_
        rw [ih (n - 1) (by omega) _ p q]
        show partSum (X m c) (W m c) (1024 * ((n - 1) / 32) + p.val) (1024 * ((n - 1) / 8 % 4) + q.val) ((n - 1) % 8 + 1)
          + blockSum (X m c) (W m c) (1024 * (n / 32) + p.val) (1024 * (n / 8 % 4) + q.val) (n % 8) = _
        rw [e1, e2, e3, ← partSum_succ]
      · rw [outsAt0_B m c ⟨n, h⟩ h0 h1]
        dsimp only
        refine (congrFun (scratch_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (outsAt0 m c (n - 1) (Nat.lt_of_le_of_lt (Nat.sub_le _ _) h)).2) (ix2 p q)).trans ?_
        refine (step_sum m c ⟨n, h⟩ _ p q).trans ?_
        rw [ih (n - 1) (by omega) _ p q]
        show partSum (X m c) (W m c) (1024 * ((n - 1) / 32) + p.val) (1024 * ((n - 1) / 8 % 4) + q.val) ((n - 1) % 8 + 1)
          + blockSum (X m c) (W m c) (1024 * (n / 32) + p.val) (1024 * (n / 8 % 4) + q.val) (n % 8) = _
        rw [e1, e2, e3, ← partSum_succ]

/-- At a run's last point the output block holds all eight partial products: the whole contraction. -/
theorem out_eq (c : Dev nD) (t : Fin cfg0.N) (h7 : t.val % 8 = 7) (j : S1024x1024.Idx) :
    (outsAt0 m c t.val t.isLt).1 j
      = partSum (X m c) (W m c) (1024 * (t.val / 32) + (j 0).val) (1024 * (t.val / 8 % 4) + (j 1).val) 8 := by
  obtain ⟨n, h⟩ := t
  have h7' : n % 8 = 7 := h7
  have hN : n < 128 := lt_of_lt_of_eq h (show cfg0.N = 128 from N_0)
  have h0 : ¬n % 8 = 0 := by omega
  have e1 : (n - 1) / 32 = n / 32 := by omega
  have e2 : (n - 1) / 8 % 4 = n / 8 % 4 := by omega
  have e3 : (n - 1) % 8 + 1 = n % 8 := by omega
  rw [eq_ix2 j]
  show (outsAt0 m c n h).1 (ix2 (j 0) (j 1)) = partSum (X m c) (W m c) (1024 * (n / 32) + (j 0).val) (1024 * (n / 8 % 4) + (j 1).val) 8
  rw [outsAt0_C m c ⟨n, h⟩ h0 h7']
  dsimp only
  refine (congrFun (out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) ((hcond0_1 ⟨n, h⟩).mpr h7') (iblk m c 0 ⟨n, h⟩) (iblk m c 1 ⟨n, h⟩) (outsAt0 m c (n - 1) (Nat.lt_of_le_of_lt (Nat.sub_le _ _) h)).2) (ix2 (j 0) (j 1))).trans ?_
  refine (step_sum m c ⟨n, h⟩ _ (j 0) (j 1)).trans ?_
  rw [acc_eq m c (n - 1) _ (j 0) (j 1)]
  show partSum (X m c) (W m c) (1024 * ((n - 1) / 32) + (j 0).val) (1024 * ((n - 1) / 8 % 4) + (j 1).val) ((n - 1) % 8 + 1)
    + blockSum (X m c) (W m c) (1024 * (n / 32) + (j 0).val) (1024 * (n / 8 % 4) + (j 1).val) (n % 8) = _
  rw [e1, e2, e3, ← partSum_succ, h7']

/-- What the result array ends holding: the binary-weight product of the argument arrays. -/
abbrev result (c : Dev nD) : Buf (Elt Ideal) ((c : Thread nD τ).loc main_v0) := G (X m c) (W m c)

/-- What a run's last point writes back is its block of the product. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  obtain ⟨-, -, -, -, e4, e5⟩ := idx_facts t
  show (cfg0.win 2).cut (grid0.coords t) ((dats m 0 c).after 2 t) = _
  rw [after0_2]
  funext j
  rw [View.read_apply]
  show (outsAt0 m c t.val t.isLt).1 j = G (X m c) (W m c) (((cfg0.win 2).blk t).view.emb j)
  have hr : ((((cfg0.win 2).blk t).view.emb j) 0).val = 1024 * (t.val / 32) + (j 0).val := by
    show win0_2.index t (0 : Fin 2) * 1024 + 1 * (j 0).val = _; omega
  have hc : ((((cfg0.win 2).blk t).view.emb j) 1).val = 1024 * (t.val / 8 % 4) + (j 1).val := by
    show win0_2.index t (1 : Fin 2) * 1024 + 1 * (j 1).val = _; omega
  rw [G_eq_partSum, hr, hc]
  exact out_eq m c t h7 j

/-- Every entry of the result lies in the output block of some run's last point. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 128 := N_0
  let t : Fin cfg0.N := ⟨32 * ((i 0).val / 1024) + 8 * ((i 1).val / 1024) + 7, by rw [hN]; omega⟩
  have ht : t.val = 32 * ((i 0).val / 1024) + 8 * ((i 1).val / 1024) + 7 := rfl
  obtain ⟨-, -, -, -, e4, e5⟩ := idx_facts t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- So the result array ends holding the product. -/
theorem final (c : Dev nD) : (dats m 0 c).arrAt 2 cfg0.N = result m c :=
  (dats m 0 c).arrAt_eq_of_cover 2 (result m c) (flushed_eq m c) cover

/-- The kernel's run, read: the result array at the product, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Acc

end
-- ==== Proof.RefValue.lean ====
/-
  The reference's result is the binary-weight product, when `w` is finite.

  The reference multiplies `x` by the straight-through weight `s + ([w > 0] - s)` with `s = 1 / (1 + e^(-w))`.  At an
  entry where `w` is a real number the soft weight `s` is a real number, the difference cancels, and the weight is
  the hard weight `[w > 0]`; the product is then the plain sum over the contraction of `x[r, k] · [w[k, c] > 0]`.
-/
import proofs.«178743_j10136122818965_1_alg».proof.Proof.Gen.ReferenceIdeal.Read
import proofs.«178743_j10136122818965_1_alg».proof.Proof.Spec

noncomputable section

open Idealize.ShloMosaic Idealize.ShloMosaic.ValueIdx

namespace Cert.ReferenceIdeal.RefValue

open Cert.ReferenceIdeal Cert.ReferenceIdeal.Read Cert.Ste

/-- The straight-through weight as the reference spells it, at a real entry `w`: the hard weight. -/
theorem ste_printed (w : Ideal .f32) (r : ℝ) (hw : w = ((r : EReal) : Ideal .f32)) :
    FloatOps.addf (F := Ideal) (φ := .f32)
        (FloatOps.hostDivf (FloatOps.ofBits .f32 0x3F800000#32)
          (FloatOps.addf (FloatOps.ofBits .f32 0x3F800000#32) (FloatOps.hostUnary .exp (FloatOps.hostNegf w))))
        (FloatOps.subf (FloatOps.uitofp .f32 (FloatOps.cmpf .ogt w (FloatOps.ofBits .f32 0x00000000#32)))
          (FloatOps.hostDivf (FloatOps.ofBits .f32 0x3F800000#32)
            (FloatOps.addf (FloatOps.ofBits .f32 0x3F800000#32) (FloatOps.hostUnary .exp (FloatOps.hostNegf w)))))
      = hard w := by
  subst hw
  show Ideal.div (Ideal.ofBits .f32 0x3F800000#32) (Ideal.ofBits .f32 0x3F800000#32 + Ideal.exp (-(r : EReal)))
      + ((((Ideal.cmp .ogt (r : EReal) (Ideal.ofBits .f32 0x00000000#32)).toNat : ℝ) : EReal)
        - Ideal.div (Ideal.ofBits .f32 0x3F800000#32) (Ideal.ofBits .f32 0x3F800000#32 + Ideal.exp (-(r : EReal))))
    = hard (r : EReal)
  rw [one_f32, Ideal.ofBits_zero_f32]
  exact ste_eq_hard r

/-- The reference's weight array at a real entry of `w` is the hard weight. -/
theorem weight_apply (x1 : (⟨S4096x4096, .f32⟩ : BufTy).Contents (Elt Ideal)) (i : S4096x4096.Idx) (r : ℝ)
    (hr : x1 i = (r : EReal)) : val_main_v10 (F := Ideal) x1 i = hard (x1 i) := by
  rw [val_main_v10_apply, val_main_v9_apply, val_main_v8_apply, val_main_v7_apply, val_main_v6_apply,
    val_main_cst_1_apply, val_main_v5_apply, val_main_v4_apply, val_main_cst_0_apply, val_main_v3_apply,
    val_main_v2_apply, val_main_cst_apply, val_main_v1_apply, val_main_v0_apply]
  exact ste_printed (x1 i) r hr

/-- THE REFERENCE'S RESULT, when every entry of `w` is a real number: the binary-weight product. -/
theorem ref_eq (x0 x1 : (⟨S4096x4096, .f32⟩ : BufTy).Contents (Elt Ideal))
    (hfin : ∀ i, ∃ r : ℝ, x1 i = (r : EReal)) : val_main_v11 (F := Ideal) x0 x1 = G x0 x1 := by
  funext i
  rw [val_main_v11_apply]
  unfold G
  refine Finset.sum_congr rfl fun k _ => ?_
  have el : lidx_main_v11 i k = ix2 (n0 := 4096) (n1 := 4096) (i 0) k := funext fun a => by
    match a with
    | ⟨0, _⟩ => rfl
    | ⟨1, _⟩ => rfl
  have er : ridx_main_v11 i k = ix2 (n0 := 4096) (n1 := 4096) k (i 1) := funext fun a => by
    match a with
    | ⟨0, _⟩ => rfl
    | ⟨1, _⟩ => rfl
  obtain ⟨r, hr⟩ := hfin (ridx_main_v11 i k)
  rw [weight_apply x1 _ r hr, el, er]

end Cert.ReferenceIdeal.RefValue

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.Finite.lean ====
/-
  From the precondition to "every entry of `w` is a real number".

  The precondition is the conjunction of `all(|x| < inf)` and `all(|w| < inf)`; its second half says that no entry of
  `w` is an infinity, which on the extended reals is to say that every entry is a real number.
-/
import proofs.«178743_j10136122818965_1_alg».proof.Defs
import proofs.«178743_j10136122818965_1_alg».proof.Proof.Gen.Pre_finite_inputs
import proofs.«178743_j10136122818965_1_alg».proof.Proof.LibFinite
import Idealize.ShloMosaic.Lib.Affine

noncomputable section

open Idealize.ShloMosaic Idealize.SL.Sem

namespace Cert.Proof.Finite

/-- Under the precondition every entry of the weight argument is a real number. -/
theorem w_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S4096x4096.Idx) :
    ∃ r : ℝ, m ((c.tc : Thread Cert.KernelIdeal.nD Cert.KernelIdeal.τ).loc Cert.KernelIdeal.main_arg1) i = (r : EReal) := by
  have h := congrFun (hpre c) ValueIdx.ix0
  dsimp only [Cert.Pre_finite_inputs.fn] at h
  have h1 := (IntOp.andi_eq_one.mp h).2
  exact Cert.LibFinite.real_of_all _ _ _ _ _ h1 i

end Cert.Proof.Finite

end
-- ==== Proof.lean ====
/-
  A 4096 × 4096 product with binary weights, against its straight-through-estimator reference.

  The kernel computes `x · [w > 0]` on a 4 × 4 × 8 grid: for each of the sixteen 1024 × 1024 output blocks it runs
  over eight blocks of 512 contraction indices, zeroing an accumulator at the first, adding each block's partial
  product, and copying the accumulator to the output at the last.  The reference computes `x · (s + ([w > 0] - s))`
  with the soft weight `s = 1 / (1 + e^(-w))`.

  Over the extended reals the two agree when `w` is finite.  The soft weight of a real entry is a real number, so
  `s + (h - s) = h` and the reference's weight is the hard weight (Proof/Spec.lean, Proof/RefValue.lean; the
  finiteness of `w` comes from the precondition, Proof/Finite.lean).  The kernel's eight partial products per entry
  add up to the whole contraction because addition of extended reals is associative (Proof/Spec.lean); that the
  accumulator holds the partial products so far after each point is an induction over the points of a run
  (Proof/Fold.lean, over one point's stores read back as values, Proof/Pieces.lean, its arithmetic at an entry,
  Proof/Payload.lean, and its blocks read off the whole arrays, Proof/Blocks.lean).  Changes of float format are the
  identity on the extended reals, and a matrix product into a zero accumulator is the plain sum of products.

  The three programs run, without fault, leaving their arguments as they were: for the two kernels that is their
  frame; for the reference it is its run with the result dropped.  The idealized kernel is the kernel's own text read
  over the extended reals: no operation was rewritten, so there is nothing to preserve.
-/
import proofs.«178743_j10136122818965_1_alg».proof.Defs
import proofs.«178743_j10136122818965_1_alg».proof.Proof.Gen.Kernel
import proofs.«178743_j10136122818965_1_alg».proof.Proof.Gen.Kernel.Skeleton
import proofs.«178743_j10136122818965_1_alg».proof.Proof.Gen.Kernel.Launch
import proofs.«178743_j10136122818965_1_alg».proof.Proof.Gen.Kernel.Points
import proofs.«178743_j10136122818965_1_alg».proof.Proof.Gen.Kernel.Frame
import proofs.«178743_j10136122818965_1_alg».proof.Proof.Gen.KernelIdeal
import proofs.«178743_j10136122818965_1_alg».proof.Proof.Gen.KernelIdeal.Skeleton
import proofs.«178743_j10136122818965_1_alg».proof.Proof.Gen.KernelIdeal.Launch
import proofs.«178743_j10136122818965_1_alg».proof.Proof.Gen.KernelIdeal.Points
import proofs.«178743_j10136122818965_1_alg».proof.Proof.Gen.KernelIdeal.Frame
import proofs.«178743_j10136122818965_1_alg».proof.Proof.Gen.ReferenceIdeal
import proofs.«178743_j10136122818965_1_alg».proof.Proof.Gen.Pre_finite_inputs
import proofs.«178743_j10136122818965_1_alg».proof.Proof.Gen.KernelIdeal.Value
import proofs.«178743_j10136122818965_1_alg».proof.Proof.Gen.ReferenceIdeal.Run
import proofs.«178743_j10136122818965_1_alg».proof.Proof.Gen.ReferenceIdeal.Read
import proofs.«178743_j10136122818965_1_alg».proof.Proof.Fold
import proofs.«178743_j10136122818965_1_alg».proof.Proof.RefValue
import proofs.«178743_j10136122818965_1_alg».proof.Proof.Finite
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- Over the extended reals, from memories that agree on `x` and a finite `w`, the kernel's result array and the
    reference's both end at the binary-weight product `∑ k, x[r, k] · [w[k, c] > 0]`. -/
theorem algebraic : Cert.algebraic_KernelIdeal_ReferenceIdeal := by
  intro m ρ m' ρ' hpre hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  exact Cert.ReferenceIdeal.RefValue.ref_eq _ _ (Cert.Proof.Finite.w_real m hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
